-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S8x128x128 : Shape := ⟨3, ![8, 128, 128]⟩
abbrev S8x128 : Shape := ⟨2, ![8, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn {F : FTy → Type} [FloatOps F] (main_arg0 : FVec F S262144x128 .f32) (main_arg1 : FVec F S8x128x128 .f32) (main_arg2 : FVec F S8x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  main_v13
-- ==== Kernel.lean ====
abbrev S262144x128 : Shape := ⟨2, ![262144, 128]⟩
abbrev S8x128x128 : Shape := ⟨3, ![8, 128, 128]⟩
abbrev S8x128 : Shape := ⟨2, ![8, 128]⟩
abbrev S4096x128 : Shape := ⟨2, ![4096, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 6
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S8x128x128, .f32⟩
  | .hbm, ⟨2, _⟩ => ⟨S8x128, .f32⟩
  | .hbm, ⟨3, _⟩ => ⟨S8x128x128, .f32⟩
  | .hbm, ⟨4, _⟩ => ⟨S8x128x128, .bf16⟩
  | .hbm, ⟨5, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S8x128x128, .bf16⟩
  | .local _ .vmem, ⟨3, _⟩ => ⟨S8x128, .f32⟩
  | .local _ .vmem, ⟨4, _⟩ => ⟨S4096x128, .f32⟩
  | .local _ .vmem, ⟨5, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8x128x128_S8x128x128_0_2_1 : S8x128x128.Transposes [0, 2, 1] S8x128x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  inb_S8x128_S1x128_0_0 : ∀ a, (![0, 0] : Fin 2 → Nat) a + S1x128.size a ≤ S8x128.size a
  h_S1x128 : 0 < S1x128.numel
  shapeCasts_S1x128_S128 : S1x128.ShapeCasts S128
  shapeCasts_S128_S1x128 : S128.ShapeCasts S1x128
  broadcasts_S1x128_S4096x128 : S1x128.Broadcasts S4096x128
  inb_S8x128x128_S1x128x128_1_0_0 : ∀ a, (![1, 0, 0] : Fin 3 → Nat) a + S1x128x128.size a ≤ S8x128x128.size a
  inb_S8x128_S1x128_1_0 : ∀ a, (![1, 0] : Fin 2 → Nat) a + S1x128.size a ≤ S8x128.size a
  inb_S8x128x128_S1x128x128_2_0_0 : ∀ a, (![2, 0, 0] : Fin 3 → Nat) a + S1x128x128.size a ≤ S8x128x128.size a
  inb_S8x128_S1x128_2_0 : ∀ a, (![2, 0] : Fin 2 → Nat) a + S1x128.size a ≤ S8x128.size a
  inb_S8x128x128_S1x128x128_3_0_0 : ∀ a, (![3, 0, 0] : Fin 3 → Nat) a + S1x128x128.size a ≤ S8x128x128.size a
  inb_S8x128_S1x128_3_0 : ∀ a, (![3, 0] : Fin 2 → Nat) a + S1x128.size a ≤ S8x128.size a
  inb_S8x128x128_S1x128x128_4_0_0 : ∀ a, (![4, 0, 0] : Fin 3 → Nat) a + S1x128x128.size a ≤ S8x128x128.size a
  inb_S8x128_S1x128_4_0 : ∀ a, (![4, 0] : Fin 2 → Nat) a + S1x128.size a ≤ S8x128.size a
  inb_S8x128x128_S1x128x128_5_0_0 : ∀ a, (![5, 0, 0] : Fin 3 → Nat) a + S1x128x128.size a ≤ S8x128x128.size a
  inb_S8x128_S1x128_5_0 : ∀ a, (![5, 0] : Fin 2 → Nat) a + S1x128.size a ≤ S8x128.size a
  inb_S8x128x128_S1x128x128_6_0_0 : ∀ a, (![6, 0, 0] : Fin 3 → Nat) a + S1x128x128.size a ≤ S8x128x128.size a
  inb_S8x128_S1x128_6_0 : ∀ a, (![6, 0] : Fin 2 → Nat) a + S1x128.size a ≤ S8x128.size a
  inb_S8x128x128_S1x128x128_7_0_0 : ∀ a, (![7, 0, 0] : Fin 3 → Nat) a + S1x128x128.size a ≤ S8x128x128.size a
  inb_S8x128_S1x128_7_0 : ∀ a, (![7, 0] : Fin 2 → Nat) a + S1x128.size a ≤ S8x128.size a
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S8x128x128.size a
  hwx0_1 : ∀ i : grid0.Coords, EltTy.bits .bf16 = 32 ∨ (Rect.block (s := S8x128x128) S8x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S262144x128.size a
  hwx0_3 : ∀ i : grid0.Coords, EltTy.bits .f32 = 32 ∨ (Rect.block (s := S262144x128) S4096x128.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S8x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x128 : Shape := ⟨2, ![262144, 128]⟩
abbrev S8x128x128 : Shape := ⟨3, ![8, 128, 128]⟩
abbrev S8x128 : Shape := ⟨2, ![8, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩

abbrev nBuf : Space → Nat
  | .hbm => 98
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S8x128x128, .f32⟩
  | .hbm, ⟨2, _⟩ => ⟨S8x128, .f32⟩
  | .hbm, ⟨3, _⟩ => ⟨S1x128x128, .f32⟩
  | .hbm, ⟨4, _⟩ => ⟨S128x128, .f32⟩
  | .hbm, ⟨5, _⟩ => ⟨S262144x128, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S262144x128, .f32⟩
  | .hbm, ⟨10, _⟩ => ⟨S262144x128, .f32⟩
  | .hbm, ⟨11, _⟩ => ⟨S_, .f32⟩
  | .hbm, ⟨12, _⟩ => ⟨S262144x128, .f32⟩
  | .hbm, ⟨13, _⟩ => ⟨S262144x128, .f32⟩
  | .hbm, ⟨14, _⟩ => ⟨S1x128x128, .f32⟩
  | .hbm, ⟨15, _⟩ => ⟨S128x128, .f32⟩
  | .hbm, ⟨16, _⟩ => ⟨S262144x128, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S262144x128, .f32⟩
  | .hbm, ⟨21, _⟩ => ⟨S262144x128, .f32⟩
  | .hbm, ⟨22, _⟩ => ⟨S_, .f32⟩
  | .hbm, ⟨23, _⟩ => ⟨S262144x128, .f32⟩
  | .hbm, ⟨24, _⟩ => ⟨S262144x128, .f32⟩
  | .hbm, ⟨25, _⟩ => ⟨S262144x128, .f32⟩
  | .hbm, ⟨26, _⟩ => ⟨S1x128x128, .f32⟩
  | .hbm, ⟨27, _⟩ => ⟨S128x128, .f32⟩
  | .hbm, ⟨28, _⟩ => ⟨S262144x128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S262144x128, .f32⟩
  | .hbm, ⟨33, _⟩ => ⟨S262144x128, .f32⟩
  | .hbm, ⟨34, _⟩ => ⟨S_, .f32⟩
  | .hbm, ⟨35, _⟩ => ⟨S262144x128, .f32⟩
  | .hbm, ⟨36, _⟩ => ⟨S262144x128, .f32⟩
  | .hbm, ⟨37, _⟩ => ⟨S262144x128, .f32⟩
  | .hbm, ⟨38, _⟩ => ⟨S1x128x128, .f32⟩
  | .hbm, ⟨39, _⟩ => ⟨S128x128, .f32⟩
  | .hbm, ⟨40, _⟩ => ⟨S262144x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S262144x128, .f32⟩
  | .hbm, ⟨45, _⟩ => ⟨S262144x128, .f32⟩
  | .hbm, ⟨46, _⟩ => ⟨S_, .f32⟩
  | .hbm, ⟨47, _⟩ => ⟨S262144x128, .f32⟩
  | .hbm, ⟨48, _⟩ => ⟨S262144x128, .f32⟩
  | .hbm, ⟨49, _⟩ => ⟨S262144x128, .f32⟩
  | .hbm, ⟨50, _⟩ => ⟨S1x128x128, .f32⟩
  | .hbm, ⟨51, _⟩ => ⟨S128x128, .f32⟩
  | .hbm, ⟨52, _⟩ => ⟨S262144x128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S262144x128, .f32⟩
  | .hbm, ⟨57, _⟩ => ⟨S262144x128, .f32⟩
  | .hbm, ⟨58, _⟩ => ⟨S_, .f32⟩
  | .hbm, ⟨59, _⟩ => ⟨S262144x128, .f32⟩
  | .hbm, ⟨60, _⟩ => ⟨S262144x128, .f32⟩
  | .hbm, ⟨61, _⟩ => ⟨S262144x128, .f32⟩
  | .hbm, ⟨62, _⟩ => ⟨S1x128x128, .f32⟩
  | .hbm, ⟨63, _⟩ => ⟨S128x128, .f32⟩
  | .hbm, ⟨64, _⟩ => ⟨S262144x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S262144x128, .f32⟩
  | .hbm, ⟨69, _⟩ => ⟨S262144x128, .f32⟩
  | .hbm, ⟨70, _⟩ => ⟨S_, .f32⟩
  | .hbm, ⟨71, _⟩ => ⟨S262144x128, .f32⟩
  | .hbm, ⟨72, _⟩ => ⟨S262144x128, .f32⟩
  | .hbm, ⟨73, _⟩ => ⟨S262144x128, .f32⟩
  | .hbm, ⟨74, _⟩ => ⟨S1x128x128, .f32⟩
  | .hbm, ⟨75, _⟩ => ⟨S128x128, .f32⟩
  | .hbm, ⟨76, _⟩ => ⟨S262144x128, .f32⟩
  | .hbm, ⟨77, _⟩ => ⟨S1x128, .f32⟩
  | .hbm, ⟨78, _⟩ => ⟨S128, .f32⟩
  | .hbm, ⟨79, _⟩ => ⟨S1x128, .f32⟩
  | .hbm, ⟨80, _⟩ => ⟨S262144x128, .f32⟩
  | .hbm, ⟨81, _⟩ => ⟨S262144x128, .f32⟩
  | .hbm, ⟨82, _⟩ => ⟨S_, .f32⟩
  | .hbm, ⟨83, _⟩ => ⟨S262144x128, .f32⟩
  | .hbm, ⟨84, _⟩ => ⟨S262144x128, .f32⟩
  | .hbm, ⟨85, _⟩ => ⟨S262144x128, .f32⟩
  | .hbm, ⟨86, _⟩ => ⟨S1x128x128, .f32⟩
  | .hbm, ⟨87, _⟩ => ⟨S128x128, .f32⟩
  | .hbm, ⟨88, _⟩ => ⟨S262144x128, .f32⟩
  | .hbm, ⟨89, _⟩ => ⟨S1x128, .f32⟩
  | .hbm, ⟨90, _⟩ => ⟨S128, .f32⟩
  | .hbm, ⟨91, _⟩ => ⟨S1x128, .f32⟩
  | .hbm, ⟨92, _⟩ => ⟨S262144x128, .f32⟩
  | .hbm, ⟨93, _⟩ => ⟨S262144x128, .f32⟩
  | .hbm, ⟨94, _⟩ => ⟨S_, .f32⟩
  | .hbm, ⟨95, _⟩ => ⟨S262144x128, .f32⟩
  | .hbm, ⟨96, _⟩ => ⟨S262144x128, .f32⟩
  | .hbm, ⟨97, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call1_cst : Ref sig .tc := ⟨.hbm, 22, rfl⟩
abbrev main_call1_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call2_cst : Ref sig .tc := ⟨.hbm, 34, rfl⟩
abbrev main_call2_v0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call3_cst : Ref sig .tc := ⟨.hbm, 46, rfl⟩
abbrev main_call3_v0 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_call4_cst : Ref sig .tc := ⟨.hbm, 58, rfl⟩
abbrev main_call4_v0 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_call5_cst : Ref sig .tc := ⟨.hbm, 70, rfl⟩
abbrev main_call5_v0 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_call6_cst : Ref sig .tc := ⟨.hbm, 82, rfl⟩
abbrev main_call6_v0 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_call7_cst : Ref sig .tc := ⟨.hbm, 94, rfl⟩
abbrev main_call7_v0 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]

class Facts₀ : Prop where
  slices_S8x128x128_S1x128x128_0_0_0 : S8x128x128.Slices ![0, 0, 0] S1x128x128
  shapeCasts_S1x128x128_S128x128 : S1x128x128.ShapeCasts S128x128
  slices_S8x128_S1x128_0_0 : S8x128.Slices ![0, 0] S1x128
  shapeCasts_S1x128_S128 : S1x128.ShapeCasts S128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  slices_S8x128x128_S1x128x128_1_0_0 : S8x128x128.Slices ![1, 0, 0] S1x128x128
  slices_S8x128_S1x128_1_0 : S8x128.Slices ![1, 0] S1x128
  slices_S8x128x128_S1x128x128_2_0_0 : S8x128x128.Slices ![2, 0, 0] S1x128x128
  slices_S8x128_S1x128_2_0 : S8x128.Slices ![2, 0] S1x128
  slices_S8x128x128_S1x128x128_3_0_0 : S8x128x128.Slices ![3, 0, 0] S1x128x128
  slices_S8x128_S1x128_3_0 : S8x128.Slices ![3, 0] S1x128
  slices_S8x128x128_S1x128x128_4_0_0 : S8x128x128.Slices ![4, 0, 0] S1x128x128
  slices_S8x128_S1x128_4_0 : S8x128.Slices ![4, 0] S1x128
  slices_S8x128x128_S1x128x128_5_0_0 : S8x128x128.Slices ![5, 0, 0] S1x128x128
  slices_S8x128_S1x128_5_0 : S8x128.Slices ![5, 0] S1x128
  slices_S8x128x128_S1x128x128_6_0_0 : S8x128x128.Slices ![6, 0, 0] S1x128x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  dot_S262144x128_S128x128_S262144x128_1_1_0_0_n_n_wf : DotDims.WF S262144x128 S128x128 S262144x128 [1] [1] [0] [0] [] []

variable [Facts₀]

def dot_S262144x128_S128x128_S262144x128_1_1_0_0_n_n : DotDims S262144x128 S128x128 S262144x128 where
  lhsContracting := [1]
  rhsContracting := [1]
  lhsNonContracting := [0]
  rhsNonContracting := [0]
  lhsBatch := []
  rhsBatch := []
  wf := dot_S262144x128_S128x128_S262144x128_1_1_0_0_n_n_wf

class Facts : Prop extends Facts₀ where

variable [Facts]
-- ==== Proof.Mlp.lean ====
/-
  The mathematics both programs compute, on ONE row of the batch, over the extended reals.

  A row `x : Fin 128 → EReal` of the input passes through eight dense layers. Layer `l` has a weight matrix
  `W l : Fin 128 → Fin 128 → EReal` (row `j` holds the coefficients of output feature `j`) and a bias `β l`:

      dense (W l) (β l) h j = max (∑ k, h k * W l j k + β l j) 0 .

  The first layer is `dense` alone; each of the seven later layers adds the ORIGINAL row back after the
  activation: `h ↦ dense (W l) (β l) h + x`. Nothing here needs the entries to be finite: the only facts used
  later are that both programs spell this very term, the sum ranging over the same index set `Fin 128`.
-/
import Idealize.ShloMosaic.PureOps.Ideal
import Idealize.ShloMosaic.Lib.ValueIdx

noncomputable section

namespace Cert.Mlp

open Idealize.ShloMosaic

/-- One dense layer with bias and rectifier on a row: feature `j` is `max (⟨h, W j⟩ + β j) 0`, the zero being the
    value the f32 zero word denotes. -/
def dense (W : Fin 128 → Fin 128 → EReal) (β : Fin 128 → EReal) (h : Fin 128 → EReal) : Fin 128 → EReal :=
  fun j => max ((∑ k : Fin 128, h k * W j k) + β j) (Ideal.ofBits .f32 0x00000000#32)

/-- A later layer: the dense layer, then the input row added back. -/
def residual (W : Fin 128 → Fin 128 → EReal) (β : Fin 128 → EReal) (x h : Fin 128 → EReal) : Fin 128 → EReal :=
  fun j => dense W β h j + x j

/-- The whole network on a row: layer 0 plain, layers 1 to 7 with the input added back. -/
def mlpRow (W : Fin 8 → Fin 128 → Fin 128 → EReal) (β : Fin 8 → Fin 128 → EReal) (x : Fin 128 → EReal) : Fin 128 → EReal :=
  residual (W 7) (β 7) x (residual (W 6) (β 6) x (residual (W 5) (β 5) x (residual (W 4) (β 4) x
    (residual (W 3) (β 3) x (residual (W 2) (β 2) x (residual (W 1) (β 1) x (dense (W 0) (β 0) x)))))))

/-- The network over the whole batch: entry (r, j) of the result is feature `j` of the network applied to row `r` of the
    input `x`, with `W l j k = w (l, j, k)` and `β l j = b (l, j)`. Both programs end holding this array. -/
def G (x : (⟨2, ![262144, 128]⟩ : Shape).Idx → EReal) (w : (⟨3, ![8, 128, 128]⟩ : Shape).Idx → EReal)
    (b : (⟨2, ![8, 128]⟩ : Shape).Idx → EReal) : (⟨2, ![262144, 128]⟩ : Shape).Idx → EReal :=
  fun i => mlpRow (fun l j k => w (ValueIdx.ix3 l j k)) (fun l j => b (ValueIdx.ix2 l j)) (fun k => x (ValueIdx.ix2 (i 0) k)) (i 1)

end Cert.Mlp

end
-- ==== Proof.KernelLayer.lean ====
/-
  One layer of the kernel body, read on a row of its block.

  The body works on a block of 4096 rows. Each layer takes the running activation block `h`, the weight slab
  `wv` loaded from the transposed weights (shape [1, 128, 128]: entry (0, k, j) multiplies input feature `k` into
  output feature `j`) and the bias row `bv` (shape [1, 128]), and forms

      max (h · wv + bv, 0)            (a matrix product into a zero accumulator, the bias broadcast down the rows).

  `blockLayer` names that term; the three payloads of the body are chains of it (`pay_first`, `pay_middle`, `pay_last`,
  by unfolding), and on row `p` it is the row-level `Mlp.dense` with `W j k = wv (0, k, j)`, `β j = bv (0, j)`
  (`blockLayer_row`): the product's contraction index is re-indexed to `Fin 128`, the narrowing of the activation to
  bf16 is the identity on extended reals, the two shape casts of the bias cancel, and the broadcast reads row 0.
-/
import proofs.«151126_j63591285785172_1_alg».proof.Proof.Gen.KernelIdeal.Skeleton
import proofs.«151126_j63591285785172_1_alg».proof.Proof.Mlp
import Idealize.ShloMosaic.Lib.ValueIdx
import Idealize.ShloMosaic.Lib.Pipeline.Value
import Idealize.ShloMosaic.PureOps.Ideal.Laws

noncomputable section

namespace Cert.KernelIdeal.Layer

open Cert.KernelIdeal Cert.KernelIdeal.Gen Idealize.ShloMosaic Idealize.ShloMosaic.ValueIdx

variable {F : FTy → Type} [FloatOps F]

/-- What one layer of the body makes of the activation block, a loaded weight slab and a loaded bias row, before the
    input is added back. -/
def blockLayer (h : FVec F S4096x128 .f32) (wv : Vec F S1x128x128 .bf16) (bv : Vec F S1x128 .f32) : FVec F S4096x128 .f32 :=
  maximumf
    (addf
      (matmul dot_S4096x128_S128x128_S4096x128_1_0_0_1_n_n none (truncf .bf16 h bitsLt_bf16_f32)
        (shapeCast S128x128 wv shapeCasts_S1x128x128_S128x128) (constant S4096x128 .f32 0x00000000#32))
      (broadcastTo S4096x128 (shapeCast S1x128 (shapeCast S128 bv shapeCasts_S1x128_S128) shapeCasts_S128_S1x128)
        broadcasts_S1x128_S4096x128))
    (broadcast S4096x128 (Scalar.ofBits .f32 0x00000000#32))

/-- Layers 0, 1, 2 as the body's first payload spells them. -/
theorem pay_first (v0 : Vec F S4096x128 .f32) (v1 : Vec F S1x128x128 .bf16) (v3 : Vec F S1x128 .f32)
    (v12 : Vec F S1x128x128 .bf16) (v14 : Vec F S1x128 .f32) (v24 : Vec F S1x128x128 .bf16) (v26 : Vec F S1x128 .f32) :
    k0_pay2 v0 v1 v3 v12 v14 v24 v26
      = addf (blockLayer (addf (blockLayer (blockLayer v0 v1 v3) v12 v14) v0) v24 v26) v0 := rfl

/-- Layers 3, 4, 5 over what the first three left. -/
theorem pay_middle (v0 : Vec F S4096x128 .f32) (v35 : FVec F S4096x128 .f32) (v36 : Vec F S1x128x128 .bf16) (v38 : Vec F S1x128 .f32)
    (v48 : Vec F S1x128x128 .bf16) (v50 : Vec F S1x128 .f32) (v60 : Vec F S1x128x128 .bf16) (v62 : Vec F S1x128 .f32) :
    k0_pay3 v0 v35 v36 v38 v48 v50 v60 v62
      = addf (blockLayer (addf (blockLayer (addf (blockLayer v35 v36 v38) v0) v48 v50) v0) v60 v62) v0 := rfl

/-- Layers 6, 7 over what the first six left: the stored value. -/
theorem pay_last (v0 : Vec F S4096x128 .f32) (v71 : FVec F S4096x128 .f32) (v72 : Vec F S1x128x128 .bf16) (v74 : Vec F S1x128 .f32)
    (v84 : Vec F S1x128x128 .bf16) (v86 : Vec F S1x128 .f32) :
    k0_pay1 v0 v71 v72 v74 v84 v86
      = addf (blockLayer (addf (blockLayer v71 v72 v74) v0) v84 v86) v0 := rfl

/-! ## The product's operand indices, axis by axis -/

theorem lhs_axis0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_axis1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_axis0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_axis1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-! ## The three pieces of a layer at an entry of the block -/

/-- The product at (p, q): the sum over the input features `k` of the activation at (p, k) times the slab at (0, k, q). -/
theorem product_apply (h : FVec Ideal S4096x128 .f32) (wv : Vec Ideal S1x128x128 .bf16) (p : Fin 4096) (q : Fin 128) :
    matmul dot_S4096x128_S128x128_S4096x128_1_0_0_1_n_n none (truncf .bf16 h bitsLt_bf16_f32)
        (shapeCast S128x128 wv shapeCasts_S1x128x128_S128x128 : FVec Ideal S128x128 .bf16)
        (constant (F := Ideal) S4096x128 .f32 0x00000000#32) (ix2 p q)
      = ∑ k : Fin 128, h (ix2 p k) * wv (ix3 (0 : Fin 1) k q) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  refine congrArg (h (ix2 p k) * ·) ?_
  exact shapeCast_apply wv shapeCasts_S1x128x128_S128x128 (ix2 k q) (ix3 (0 : Fin 1) k q)
    (by rewrite [Shape.rowMajor_val_three, Shape.rowMajor_val_two]
        show (0 * 128 + k.val) * 128 + q.val = k.val * 128 + q.val
        omega)

/-- The bias at (p, q): the loaded row at (0, q), whatever the row `p`. -/
theorem bias_apply (bv : Vec Ideal S1x128 .f32) (p : Fin 4096) (q : Fin 128) :
    broadcastTo S4096x128 (shapeCast S1x128 (shapeCast S128 bv shapeCasts_S1x128_S128) shapeCasts_S128_S1x128)
        broadcasts_S1x128_S4096x128 (ix2 p q)
      = bv (ix2 (0 : Fin 1) q) := by
  rw [shapeCast_shapeCast]
  exact broadcastTo_apply bv broadcasts_S1x128_S4096x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- Row `p` of a block-shaped array. -/
def blockRow (h : FVec Ideal S4096x128 .f32) (p : Fin 4096) : Fin 128 → EReal := fun q => h (ix2 p q)

/-- ONE LAYER ON A ROW: row `p` of the layer's block is the dense layer of row `p` of the activation, for any names
    `Wl`, `βl` of what the slab (read transposed) and the bias row hold. -/
theorem blockLayer_row (h : FVec Ideal S4096x128 .f32) (wv : Vec Ideal S1x128x128 .bf16) (bv : Vec Ideal S1x128 .f32)
    (Wl : Fin 128 → Fin 128 → EReal) (βl : Fin 128 → EReal) (hW : ∀ j k, wv (ix3 (0 : Fin 1) k j) = Wl j k)
    (hβ : ∀ j, bv (ix2 (0 : Fin 1) j) = βl j) (p : Fin 4096) :
    blockRow (blockLayer (F := Ideal) h wv bv) p = Cert.Mlp.dense Wl βl (blockRow h p) := by
  funext q
  unfold blockRow blockLayer Cert.Mlp.dense
  rw [maximumf_apply, addf_apply, product_apply, bias_apply, hβ]
  simp only [hW]
  rfl

/-- A later layer on a row: the dense layer of the previous activation's row plus the input block's row. -/
theorem residual_row (h x0 : FVec Ideal S4096x128 .f32) (wv : Vec Ideal S1x128x128 .bf16) (bv : Vec Ideal S1x128 .f32)
    (Wl : Fin 128 → Fin 128 → EReal) (βl : Fin 128 → EReal) (hW : ∀ j k, wv (ix3 (0 : Fin 1) k j) = Wl j k)
    (hβ : ∀ j, bv (ix2 (0 : Fin 1) j) = βl j) (p : Fin 4096) :
    blockRow (addf (blockLayer (F := Ideal) h wv bv) x0) p = Cert.Mlp.residual Wl βl (blockRow x0 p) (blockRow h p) := by
  funext q
  unfold Cert.Mlp.residual
  rw [← blockLayer_row h wv bv Wl βl hW hβ p]
  rfl

end Cert.KernelIdeal.Layer

end
-- ==== Proof.KernelBlocks.lean ====
/-
  From the kernel's blocks to its whole result.

  Grid point `t` (of 64) stages rows `4096 t … 4096 t + 4095` of the input, the WHOLE transposed-weight array and the
  WHOLE bias array, runs the eight layers on the block and writes the block back to the same rows of the result.
  So entry (p, q) of what point `t` writes is the network of `Mlp.mlpRow` on row `4096 t + p` of the input
  (`written_row`: the body's payloads are chains of `blockLayer`, each a dense layer on the row), where the weights the
  body reads are the program's second argument with its last two axes swapped and narrowed to bf16, the narrowing being
  the identity on extended reals (`slab_entry`). The staged blocks themselves are read back as entries of the three
  arguments (`input_block_entry`, `weight_block_entry`, `bias_block_entry`), the block origins decided over the 64 grid
  points (`block_origins`).
-/
import proofs.«151126_j63591285785172_1_alg».proof.Proof.Gen.KernelIdeal.Value
import proofs.«151126_j63591285785172_1_alg».proof.Proof.KernelLayer
import Idealize.ShloMosaic.Lib.StableHlo.Run

set_option maxRecDepth 16384

noncomputable section

namespace Cert.KernelIdeal.Blocks

open Cert.KernelIdeal Cert.KernelIdeal.Gen Cert.KernelIdeal.Layer Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets2 : (![0, 0] : Fin 2 → Nat) = fun _ => 0 := funext fun a => by fin_cases a <;> rfl

/-! ## The loaded slabs and bias rows -/

/-- The slab a layer loads at offset `o` of the staged weights, at (0, k, j), is the staged array at (o, k, j). -/
theorem ld_slab (X1 : Vec Ideal S8x128x128 .bf16) (o : Nat) (ho : o < 8)
    (inb : ∀ a, (![o, 0, 0] : Fin 3 → Nat) a + S1x128x128.size a ≤ S8x128x128.size a) (k j : Fin 128) :
    View.ld X1 (Rect.unit (s := S8x128x128) ![o, 0, 0] S1x128x128.size inb) (ix3 (0 : Fin 1) k j) = X1 (ix3 (⟨o, ho⟩ : Fin 8) k j) := by
  refine congrArg X1 (funext fun a => Fin.ext ?_)
  match a with
  | ⟨0, _⟩ => show o + 1 * 0 = o; omega
  | ⟨1, _⟩ => show 0 + 1 * k.val = k.val; omega
  | ⟨2, _⟩ => show 0 + 1 * j.val = j.val; omega

/-- The bias row a layer loads at offset `o` of the staged biases, at (0, j), is the staged array at (o, j). -/
theorem ld_bias (X2 : Vec Ideal S8x128 .f32) (o : Nat) (ho : o < 8)
    (inb : ∀ a, (![o, 0] : Fin 2 → Nat) a + S1x128.size a ≤ S8x128.size a) (j : Fin 128) :
    View.ld X2 (Rect.unit (s := S8x128) ![o, 0] S1x128.size inb) (ix2 (0 : Fin 1) j) = X2 (ix2 (⟨o, ho⟩ : Fin 8) j) := by
  refine congrArg X2 (funext fun a => Fin.ext ?_)
  match a with
  | ⟨0, _⟩ => show o + 1 * 0 = o; omega
  | ⟨1, _⟩ => show 0 + 1 * j.val = j.val; omega

/-! ## What the body leaves in the output block, on a row -/

/-- ROW `p` OF WHAT THE BODY WRITES, from the three staged blocks: the network on row `p` of the input block, with
    `W l j k` the staged (transposed) weights at (l, k, j) and `β l j` the staged biases at (l, j). -/
theorem written_row (X0 : Vec Ideal S4096x128 .f32) (X1 : Vec Ideal S8x128x128 .bf16) (X2 : Vec Ideal S8x128 .f32) (p : Fin 4096) :
    blockRow (out0_3 X0 X1 X2) p
      = Cert.Mlp.mlpRow (fun l j k => X1 (ix3 l k j)) (fun l j => X2 (ix2 l j)) (blockRow X0 p) := by
  unfold out0_3
  rw [View.canon_unit_zero zero_offsets2]
  simp only [View.ld_unit_zero (S := S4096x128) zero_offsets2]
  rw [pay_last, pay_middle, pay_first,
    residual_row _ X0 _ _ _ _ (fun j k => ld_slab X1 7 (by decide) _ k j) (fun j => ld_bias X2 7 (by decide) _ j),
    residual_row _ X0 _ _ _ _ (fun j k => ld_slab X1 6 (by decide) _ k j) (fun j => ld_bias X2 6 (by decide) _ j),
    residual_row _ X0 _ _ _ _ (fun j k => ld_slab X1 5 (by decide) _ k j) (fun j => ld_bias X2 5 (by decide) _ j),
    residual_row _ X0 _ _ _ _ (fun j k => ld_slab X1 4 (by decide) _ k j) (fun j => ld_bias X2 4 (by decide) _ j),
    residual_row _ X0 _ _ _ _ (fun j k => ld_slab X1 3 (by decide) _ k j) (fun j => ld_bias X2 3 (by decide) _ j),
    residual_row _ X0 _ _ _ _ (fun j k => ld_slab X1 2 (by decide) _ k j) (fun j => ld_bias X2 2 (by decide) _ j),
    residual_row _ X0 _ _ _ _ (fun j k => ld_slab X1 1 (by decide) _ k j) (fun j => ld_bias X2 1 (by decide) _ j),
    blockLayer_row X0 _ _ _ _ (fun j k => ld_slab X1 0 (by decide) _ k j) (fun j => ld_bias X2 0 (by decide) _ j)]
  rfl

/-- The same at an entry `y` of the block: the network on row `y 0` of the input block, at feature `y 1`. -/
theorem written_entry (X0 : Vec Ideal S4096x128 .f32) (X1 : Vec Ideal S8x128x128 .bf16) (X2 : Vec Ideal S8x128 .f32) (y : S4096x128.Idx) :
    out0_3 X0 X1 X2 y
      = Cert.Mlp.mlpRow (fun l j k => X1 (ix3 l k j)) (fun l j => X2 (ix2 l j)) (fun k => X0 (ix2 (y 0) k)) (y 1) := by
  have h := congrFun (written_row X0 X1 X2 (y 0)) (y 1)
  unfold blockRow at h
  exact (congrArg (out0_3 X0 X1 X2) (eq_ix2 y)).trans h

/-! ## The staged arrays as functions of the arguments -/

/-- The array the weight window stages is the second argument with its last two axes swapped, narrowed to bf16. -/
theorem staged_weights (c : Dev nD) :
    (V m c main_call0_v1 : S8x128x128.Idx → EReal)
      = truncf (F := Ideal) .bf16 (transpose S8x128x128 [0, 2, 1] (m ((c : Thread nD τ).loc main_arg1)) transposes_S8x128x128_S8x128x128_0_2_1) bitsLt_bf16_f32 := by
  dsimp only [Gen.V, Gen.hostOps0]
  after_results
  rfl

/-- Its entry (l, k, j) is the second argument's entry (l, j, k). -/
theorem slab_entry (c : Dev nD) (l : Fin 8) (k j : Fin 128) :
    (V m c main_call0_v1 : S8x128x128.Idx → EReal) (ix3 l k j) = m ((c : Thread nD τ).loc main_arg1) (ix3 l j k) := by
  rw [staged_weights]
  show transpose S8x128x128 [0, 2, 1] (m ((c : Thread nD τ).loc main_arg1)) transposes_S8x128x128_S8x128x128_0_2_1 (ix3 l k j) = _
  exact transpose_apply [0, 2, 1] _ transposes_S8x128x128_S8x128x128_0_2_1 (ix3 l k j) (ix3 l j k) (fun b => match b with
    | ⟨0, _⟩ => rfl
    | ⟨1, _⟩ => rfl
    | ⟨2, _⟩ => rfl)

/-- Where each window's block sits at grid point `t`: the input's and the result's at block row `t`, the weights' and the
    biases' at the origin (decided over the 64 points). -/
theorem block_origins : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The staged weight block at (l, k, j): the second argument at (l, j, k). -/
theorem weight_block_entry (c : Dev nD) (t : Fin cfg0.N) (l : Fin 8) (k j : Fin 128) :
    iblk m c 1 t (ix3 l k j) = m ((c : Thread nD τ).loc main_arg1) (ix3 l j k) := by
  obtain ⟨-, -, e0, e1, e2, -, -, -, -⟩ := block_origins t
  refine Eq.trans ?_ (slab_entry m c l k j)
  show V m c main_call0_v1 (((cfg0.win 1).blk t).view.emb (ix3 l k j)) = V m c main_call0_v1 (ix3 l k j)
  refine congrArg (V m c main_call0_v1) (funext fun a => Fin.ext ?_)
  match a with
  | ⟨0, _⟩ => show win0_1.index t (0 : Fin 3) * 8 + 1 * l.val = l.val; omega
  | ⟨1, _⟩ => show win0_1.index t (1 : Fin 3) * 128 + 1 * k.val = k.val; omega
  | ⟨2, _⟩ => show win0_1.index t (2 : Fin 3) * 128 + 1 * j.val = j.val; omega

/-- The staged bias block at (l, j): the third argument at (l, j). -/
theorem bias_block_entry (c : Dev nD) (t : Fin cfg0.N) (l : Fin 8) (j : Fin 128) :
    iblk m c 2 t (ix2 l j) = m ((c : Thread nD τ).loc main_arg2) (ix2 l j) := by
  obtain ⟨-, -, -, -, -, e0, e1, -, -⟩ := block_origins t
  show V m c main_arg2 (((cfg0.win 2).blk t).view.emb (ix2 l j)) = _
  rw [V_main_arg2]
  refine congrArg (m ((c : Thread nD τ).loc main_arg2)) (funext fun a => Fin.ext ?_)
  match a with
  | ⟨0, _⟩ => show win0_2.index t (0 : Fin 2) * 8 + 1 * l.val = l.val; omega
  | ⟨1, _⟩ => show win0_2.index t (1 : Fin 2) * 128 + 1 * j.val = j.val; omega

/-- The staged input block at (p, k): the first argument at the row the result's block puts `p` on, column `k`. -/
theorem input_block_entry (c : Dev nD) (t : Fin cfg0.N) (y : S4096x128.Idx) (k : Fin 128) :
    iblk m c 0 t (ix2 (y 0) k)
      = m ((c : Thread nD τ).loc main_arg0) (ix2 ((((cfg0.win 3).blk t).view.emb y) 0) k) := by
  obtain ⟨e0, e1, -, -, -, -, -, e2, e3⟩ := block_origins t
  show V m c main_arg0 (((cfg0.win 0).blk t).view.emb (ix2 (y 0) k)) = _
  rw [V_main_arg0]
  refine congrArg (m ((c : Thread nD τ).loc main_arg0)) (funext fun a => Fin.ext ?_)
  match a with
  | ⟨0, _⟩ => show win0_0.index t (0 : Fin 2) * 4096 + 1 * (y 0).val = win0_3.index t (0 : Fin 2) * 4096 + 1 * (y 0).val; omega
  | ⟨1, _⟩ => show win0_0.index t (1 : Fin 2) * 128 + 1 * k.val = k.val; omega

end Cert.KernelIdeal.Blocks

end
-- ==== Proof.KernelArray.lean ====
/-
  The kernel's whole result.

  Point `t` writes block `t` of `Mlp.G` of the three arguments (`flushed_eq`: the entry the body leaves at `y` is the
  network on the staged input row, and the staged blocks are entries of the arguments; the result's block puts `y` on
  row `4096 t + y 0`, column `y 1`). Row `r` of the result lies in the block of point `r / 4096`, so the 64 blocks cover
  the array (`cover`) and the array ends as `Mlp.G` (`final`); `run` is the kernel's run with that result named.
-/
import proofs.«151126_j63591285785172_1_alg».proof.Proof.KernelBlocks

set_option maxRecDepth 16384

noncomputable section

namespace Cert.KernelIdeal.Blocks

open Cert.KernelIdeal Cert.KernelIdeal.Gen Cert.KernelIdeal.Layer Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- WHAT POINT `t` WRITES BACK is block `t` of `Mlp.G` of the three arguments. -/
theorem flushed_eq (c : Dev nD) (t : Fin cfg0.N) :
    (dats m 0 c).flushed 3 t = ((cfg0.win 3).blk t).view.read (Elt Ideal)
      (Cert.Mlp.G (m ((c : Thread nD τ).loc main_arg0)) (m ((c : Thread nD τ).loc main_arg1)) (m ((c : Thread nD τ).loc main_arg2))) := by
  rw [Cert.KernelIdeal.Value.flushed3]
  obtain ⟨-, -, -, -, -, -, -, -, e3⟩ := block_origins t
  funext y
  show out0_3 (iblk m c 0 t) (iblk m c 1 t) (iblk m c 2 t) y
    = Cert.Mlp.G (m ((c : Thread nD τ).loc main_arg0)) (m ((c : Thread nD τ).loc main_arg1)) (m ((c : Thread nD τ).loc main_arg2)) (((cfg0.win 3).blk t).view.emb y)
  refine (written_entry (iblk m c 0 t) (iblk m c 1 t) (iblk m c 2 t) y).trans ?_
  unfold Cert.Mlp.G
  have hW : (fun (l : Fin 8) (j k : Fin 128) => iblk m c 1 t (ix3 l k j))
      = fun l j k => m ((c : Thread nD τ).loc main_arg1) (ix3 l j k) :=
    funext fun l => funext fun j => funext fun k => weight_block_entry m c t l k j
  have hβ : (fun (l : Fin 8) (j : Fin 128) => iblk m c 2 t (ix2 l j))
      = fun l j => m ((c : Thread nD τ).loc main_arg2) (ix2 l j) :=
    funext fun l => funext fun j => bias_block_entry m c t l j
  have hx : (fun k : Fin 128 => iblk m c 0 t (ix2 (y 0) k))
      = fun k => m ((c : Thread nD τ).loc main_arg0) (ix2 ((((cfg0.win 3).blk t).view.emb y) 0) k) :=
    funext fun k => input_block_entry m c t y k
  have hq : (y 1 : Fin 128) = (((cfg0.win 3).blk t).view.emb y) 1 := Fin.ext (by
    show (y 1).val = win0_3.index t (1 : Fin 2) * 128 + 1 * (y 1).val
    omega)
  rw [hW, hβ]
  exact congr (congrArg (Cert.Mlp.mlpRow _ _) hx) hq

/-- An index of the result is in point `t`'s block iff each coordinate is in the block's range on its axis. -/
theorem mem_block (t : Fin cfg0.N) (i : S262144x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v0).slice (win0_3.rect t)).set ↔ _
  rw [View.set_slice_whole, Rect.mem_set_unit]
  exact Iff.rfl

/-- Every index of the result is in the block of the point its row falls to. -/
theorem cover (i : S262144x128.Idx) : ∃ t : Fin cfg0.N, (cfg0.win 3).flush t = true ∧ i ∈ ((cfg0.win 3).blk t).view.set := by
  have hi0 : (i 0).val < 262144 := (i 0).isLt
  have hi1 : (i 1).val < 128 := (i 1).isLt
  obtain ⟨t, ht⟩ : ∃ t : Fin cfg0.N, t.val = (i 0).val / 4096 := ⟨⟨(i 0).val / 4096, by rw [show cfg0.N = 64 from N_0]; omega⟩, rfl⟩
  obtain ⟨-, -, -, -, -, -, -, e2, e3⟩ := block_origins t
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- THE RESULT ARRAY after the run is `Mlp.G` of the three arguments. -/
theorem final (c : Dev nD) :
    (dats m 0 c).arrAt 3 cfg0.N
      = Cert.Mlp.G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run with its result named: `Mlp.G` of the arguments, the arguments unchanged. -/
theorem run : θ_run defs (onTc (τ := τ) (main (F := Ideal))) ⟨m, fun _ => 0, ρ⟩ fun r => ∀ c : Dev nD,
      r.2.mem ((c : Thread nD τ).loc main_v0)
        = Cert.Mlp.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Blocks

end
-- ==== Proof.RefLayer.lean ====
/-
  The reference, layer by layer, read on a row of the whole batch.

  The reference works on all 262144 rows at once. Layer `l` slices matrix `l` out of the weights and row `l` out of the
  biases, contracts the activation's feature axis against the matrix's SECOND axis (so entry (r, j) of the product is
  `∑ k, H (r, k) * w (l, j, k)`), adds the bias broadcast down the rows, and takes the maximum with zero; from layer 1 on
  the input is added back. `arrayLayer` names one such layer over an already sliced matrix and bias, `sliceW` / `sliceB`
  the slicing; the program's result is a chain of them (`result_chain`, by unfolding). On row `r` a layer is the
  row-level `Mlp.dense` (`arrayLayer_row`), the sliced matrix and bias read back at an index are
  `W l j k = w (l, j, k)` and `β l j = b (l, j)` (`sliceW_apply`, `sliceB_apply`), `reference_row` is the whole chain, and `result_eq` states it
  of the whole array: the reference's result is `Mlp.G` of its arguments.
-/
import proofs.«151126_j63591285785172_1_alg».proof.Proof.Gen.ReferenceIdeal.Read
import proofs.«151126_j63591285785172_1_alg».proof.Proof.Mlp
import Idealize.ShloMosaic.Lib.ValueIdx
import Idealize.ShloMosaic.Lib.Pipeline.Value
import Idealize.ShloMosaic.PureOps.Ideal.Laws

noncomputable section

namespace Cert.ReferenceIdeal.Layer

open Cert.ReferenceIdeal Cert.ReferenceIdeal.Gen Cert.ReferenceIdeal.Read Idealize.ShloMosaic Idealize.ShloMosaic.ValueIdx

variable {F : FTy → Type} [FloatOps F]

/-- One layer over the whole batch, before the input is added back: the activation against an already sliced
    weight matrix and bias vector. -/
def arrayLayer (H : FVec F S262144x128 .f32) (wl : FVec F S128x128 .f32) (bl : FVec F S128 .f32) : FVec F S262144x128 .f32 :=
  maximumf
    (addf (Host.dotGeneral dot_S262144x128_S128x128_S262144x128_1_1_0_0_n_n none H wl)
      (broadcastInDim S262144x128 ![0, 1] bcast_S1x128_S262144x128_0_1 (broadcastInDim S1x128 ![1] bcast_S128_S1x128_1 bl)))
    (broadcastInDim S262144x128 ![] bcast_S_S262144x128 (constant S_ .f32 0x00000000#32))

/-- Matrix `o` of the weights, as a 128 × 128 array. -/
def sliceW (x1 : FVec F S8x128x128 .f32) (o : Nat) (hs : S8x128x128.Slices ![o, 0, 0] S1x128x128) : FVec F S128x128 .f32 :=
  shapeCast S128x128 (extractStridedSlice S1x128x128 ![o, 0, 0] x1 hs) shapeCasts_S1x128x128_S128x128

/-- Row `o` of the biases, as a vector of 128. -/
def sliceB (x2 : FVec F S8x128 .f32) (o : Nat) (hs : S8x128.Slices ![o, 0] S1x128) : FVec F S128 .f32 :=
  shapeCast S128 (extractStridedSlice S1x128 ![o, 0] x2 hs) shapeCasts_S1x128_S128

/-- The result of the program as the chain of its eight layers: layer 0 plain, each later one with the input added back. -/
theorem result_chain (x0 : FVec F S262144x128 .f32) (x1 : FVec F S8x128x128 .f32) (x2 : FVec F S8x128 .f32) :
    val_main_v78 (F := F) x0 x1 x2
      = addf (arrayLayer
          (addf (arrayLayer
            (addf (arrayLayer
              (addf (arrayLayer
                (addf (arrayLayer
                  (addf (arrayLayer
                    (addf (arrayLayer
                      (arrayLayer x0 (sliceW x1 0 slices_S8x128x128_S1x128x128_0_0_0) (sliceB x2 0 slices_S8x128_S1x128_0_0))
                      (sliceW x1 1 slices_S8x128x128_S1x128x128_1_0_0) (sliceB x2 1 slices_S8x128_S1x128_1_0)) x0)
                    (sliceW x1 2 slices_S8x128x128_S1x128x128_2_0_0) (sliceB x2 2 slices_S8x128_S1x128_2_0)) x0)
                  (sliceW x1 3 slices_S8x128x128_S1x128x128_3_0_0) (sliceB x2 3 slices_S8x128_S1x128_3_0)) x0)
                (sliceW x1 4 slices_S8x128x128_S1x128x128_4_0_0) (sliceB x2 4 slices_S8x128_S1x128_4_0)) x0)
              (sliceW x1 5 slices_S8x128x128_S1x128x128_5_0_0) (sliceB x2 5 slices_S8x128_S1x128_5_0)) x0)
            (sliceW x1 6 slices_S8x128x128_S1x128x128_6_0_0) (sliceB x2 6 slices_S8x128_S1x128_6_0)) x0)
          (sliceW x1 7 slices_S8x128x128_S1x128x128_7_0_0) (sliceB x2 7 slices_S8x128_S1x128_7_0)) x0 := rfl

/-- Row `r` of a batch-shaped array. -/
def row (H : FVec Ideal S262144x128 .f32) (r : Fin 262144) : Fin 128 → EReal := fun q => H (ix2 r q)

/-- The network's weights and biases as the reference indexes its arguments. -/
def W (x1 : FVec Ideal S8x128x128 .f32) : Fin 8 → Fin 128 → Fin 128 → EReal := fun l j k => x1 (ix3 l j k)
def β (x2 : FVec Ideal S8x128 .f32) : Fin 8 → Fin 128 → EReal := fun l j => x2 (ix2 l j)

/-! ## A layer's three pieces at an entry -/

/-- The product at (r, q): the sum over the input features `k` of the activation at (r, k) times the matrix at (q, k). -/
theorem product_apply (H : FVec Ideal S262144x128 .f32) (wl : FVec Ideal S128x128 .f32) (r : Fin 262144) (q : Fin 128) :
    Host.dotGeneral (F := Ideal) dot_S262144x128_S128x128_S262144x128_1_1_0_0_n_n none H wl (ix2 r q)
      = ∑ k : Fin 128, H (ix2 r k) * wl (ix2 q k) := by
  simp only [Host.dotGeneral]
  rw [Ideal.dotGeneral_apply, ← Equiv.sum_comp (contrEquiv1 dot_S262144x128_S128x128_S262144x128_1_1_0_0_n_n 128 rfl rfl).symm]
  refine Finset.sum_congr rfl fun k _ => ?_
  have hk := contrEquiv1_symm_val dot_S262144x128_S128x128_S262144x128_1_1_0_0_n_n 128 rfl rfl k
  have el : dot_S262144x128_S128x128_S262144x128_1_1_0_0_n_n.lhsIdx (ix2 r q) ((contrEquiv1 dot_S262144x128_S128x128_S262144x128_1_1_0_0_n_n 128 rfl rfl).symm k) = ix2 r k := funext fun a => Fin.ext (by
    match a with
    | ⟨0, _⟩ => exact lhs_main_v2_0 _ _
    | ⟨1, _⟩ => exact (lhs_main_v2_1 _ _).trans hk)
  have er : dot_S262144x128_S128x128_S262144x128_1_1_0_0_n_n.rhsIdx (ix2 r q) ((contrEquiv1 dot_S262144x128_S128x128_S262144x128_1_1_0_0_n_n 128 rfl rfl).symm k) = ix2 q k := funext fun a => Fin.ext (by
    match a with
    | ⟨0, _⟩ => exact rhs_main_v2_0 _ _
    | ⟨1, _⟩ => exact (rhs_main_v2_1 _ _).trans hk)
  rw [el, er]

/-- The bias at (r, q): the vector at q, whatever the row. -/
theorem bias_apply (bl : FVec Ideal S128 .f32) (r : Fin 262144) (q : Fin 128) :
    broadcastInDim S262144x128 ![0, 1] bcast_S1x128_S262144x128_0_1 (broadcastInDim S1x128 ![1] bcast_S128_S1x128_1 bl) (ix2 r q)
      = bl (ix1 q) := by
  rw [broadcastInDim_apply _ bcast_S1x128_S262144x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  exact broadcastInDim_apply _ bcast_S128_S1x128_1 bl (ix2 (0 : Fin 1) q) (ix1 q) (fun a => match a with
    | ⟨0, _⟩ => by show q.val = if (128 : Nat) = 1 then 0 else q.val; rw [if_neg (by decide)])

/-- The rectifier's zero at any entry: the value of the zero word. -/
theorem zero_apply (i : S262144x128.Idx) :
    broadcastInDim S262144x128 ![] bcast_S_S262144x128 (constant (F := Ideal) S_ .f32 0x00000000#32) i
      = Ideal.ofBits .f32 0x00000000#32 :=
  broadcastInDim_apply _ bcast_S_S262144x128 _ i (fun a => a.elim0) (fun a => a.elim0)

/-- ONE LAYER ON A ROW, for any names `Wl`, `βl` of what the sliced matrix and bias hold. -/
theorem arrayLayer_row (H : FVec Ideal S262144x128 .f32) (wl : FVec Ideal S128x128 .f32) (bl : FVec Ideal S128 .f32)
    (Wl : Fin 128 → Fin 128 → EReal) (βl : Fin 128 → EReal) (hW : ∀ j k, wl (ix2 j k) = Wl j k) (hβ : ∀ j, bl (ix1 j) = βl j)
    (r : Fin 262144) :
    row (arrayLayer (F := Ideal) H wl bl) r = Cert.Mlp.dense Wl βl (row H r) := by
  funext q
  unfold row arrayLayer Cert.Mlp.dense
  rw [maximumf_apply, addf_apply, product_apply, bias_apply, zero_apply, hβ]
  simp only [hW]

/-- A later layer on a row: the dense layer of the previous activation's row plus the input's row. -/
theorem residual_row (H x0 : FVec Ideal S262144x128 .f32) (wl : FVec Ideal S128x128 .f32) (bl : FVec Ideal S128 .f32)
    (Wl : Fin 128 → Fin 128 → EReal) (βl : Fin 128 → EReal) (hW : ∀ j k, wl (ix2 j k) = Wl j k) (hβ : ∀ j, bl (ix1 j) = βl j)
    (r : Fin 262144) :
    row (addf (arrayLayer (F := Ideal) H wl bl) x0) r = Cert.Mlp.residual Wl βl (row x0 r) (row H r) := by
  funext q
  unfold Cert.Mlp.residual
  rw [← arrayLayer_row H wl bl Wl βl hW hβ r]
  rfl

/-! ## The sliced matrices and biases read back at an index -/

/-- Matrix `o` at (j, k) is the weights at (o, j, k): the cast keeps the row-major position, the slice shifts the first axis. -/
theorem sliceW_apply (x1 : FVec Ideal S8x128x128 .f32) (o : Nat) (ho : o < 8) (hs : S8x128x128.Slices ![o, 0, 0] S1x128x128)
    (j k : Fin 128) : sliceW x1 o hs (ix2 j k) = W x1 ⟨o, ho⟩ j k := by
  unfold sliceW W
  rw [shapeCast_apply _ shapeCasts_S1x128x128_S128x128 (ix2 j k) (ix3 (0 : Fin 1) j k)
    (by rewrite [Shape.rowMajor_val_three, Shape.rowMajor_val_two]
        show (0 * 128 + j.val) * 128 + k.val = j.val * 128 + k.val
        omega)]
  exact extractStridedSlice_apply ![o, 0, 0] x1 hs (ix3 (0 : Fin 1) j k) (ix3 (⟨o, ho⟩ : Fin 8) j k) (fun a => match a with
    | ⟨0, _⟩ => by show o = o + 0; omega
    | ⟨1, _⟩ => by show j.val = 0 + j.val; omega
    | ⟨2, _⟩ => by show k.val = 0 + k.val; omega)

/-- Bias row `o` at `j` is the biases at (o, j). -/
theorem sliceB_apply (x2 : FVec Ideal S8x128 .f32) (o : Nat) (ho : o < 8) (hs : S8x128.Slices ![o, 0] S1x128)
    (j : Fin 128) : sliceB x2 o hs (ix1 j) = β x2 ⟨o, ho⟩ j := by
  unfold sliceB β
  rw [shapeCast_apply _ shapeCasts_S1x128_S128 (ix1 j) (ix2 (0 : Fin 1) j)
    (by rewrite [Shape.rowMajor_val_two, Shape.rowMajor_val_one]
        show 0 * 128 + j.val = j.val
        omega)]
  exact extractStridedSlice_apply ![o, 0] x2 hs (ix2 (0 : Fin 1) j) (ix2 (⟨o, ho⟩ : Fin 8) j) (fun a => match a with
    | ⟨0, _⟩ => by show o = o + 0; omega
    | ⟨1, _⟩ => by show j.val = 0 + j.val; omega)

/-- THE REFERENCE ON A ROW: row `r` of its result is the network of `Mlp.mlpRow` on row `r` of the input. -/
theorem reference_row (x0 : FVec Ideal S262144x128 .f32) (x1 : FVec Ideal S8x128x128 .f32) (x2 : FVec Ideal S8x128 .f32)
    (r : Fin 262144) :
    row (val_main_v78 (F := Ideal) x0 x1 x2) r = Cert.Mlp.mlpRow (W x1) (β x2) (row x0 r) := by
  rw [result_chain,
    residual_row _ x0 _ _ _ _ (sliceW_apply x1 7 (by decide) _) (sliceB_apply x2 7 (by decide) _),
    residual_row _ x0 _ _ _ _ (sliceW_apply x1 6 (by decide) _) (sliceB_apply x2 6 (by decide) _),
    residual_row _ x0 _ _ _ _ (sliceW_apply x1 5 (by decide) _) (sliceB_apply x2 5 (by decide) _),
    residual_row _ x0 _ _ _ _ (sliceW_apply x1 4 (by decide) _) (sliceB_apply x2 4 (by decide) _),
    residual_row _ x0 _ _ _ _ (sliceW_apply x1 3 (by decide) _) (sliceB_apply x2 3 (by decide) _),
    residual_row _ x0 _ _ _ _ (sliceW_apply x1 2 (by decide) _) (sliceB_apply x2 2 (by decide) _),
    residual_row _ x0 _ _ _ _ (sliceW_apply x1 1 (by decide) _) (sliceB_apply x2 1 (by decide) _),
    arrayLayer_row x0 _ _ _ _ (sliceW_apply x1 0 (by decide) _) (sliceB_apply x2 0 (by decide) _)]
  rfl

/-- THE REFERENCE'S RESULT is `Mlp.G` of its three arguments: entry `i` is the network on row `i 0`, at feature `i 1`. -/
theorem result_eq (x0 : FVec Ideal S262144x128 .f32) (x1 : FVec Ideal S8x128x128 .f32) (x2 : FVec Ideal S8x128 .f32) :
    val_main_v78 (F := Ideal) x0 x1 x2 = Cert.Mlp.G x0 x1 x2 := by
  funext i
  have h := congrFun (reference_row x0 x1 x2 (i 0)) (i 1)
  unfold row at h
  exact (congrArg (val_main_v78 (F := Ideal) x0 x1 x2) (eq_ix2 i)).trans h

end Cert.ReferenceIdeal.Layer

end
-- ==== Proof.lean ====
/-
  The kernel runs an eight-layer network of width 128 on a batch of 262144 rows, one block of 4096 rows per grid point, the
  weights transposed and narrowed to bf16 beforehand; the reference runs the same network on the whole batch with the
  weights as given. At the ideal values narrowing is the identity and a matrix product is the plain sum of products, so
  both end holding ONE array, `Mlp.G` of the three arguments: entry (r, j) is feature `j` of

      x ↦ layer 7 (… layer 1 (layer 0 x) …),    layer l h = max (h · (w l)ᵀ + b l, 0)  (+ x for l ≥ 1)

  applied to row `r` of the input. The kernel's side is `Cert.KernelIdeal.Blocks.run` (each grid point writes its block
  of `Mlp.G`, the blocks cover the array), the reference's `Cert.ReferenceIdeal.Layer.result_eq` over its run. No
  finiteness of the inputs is used: the two sums range over the same index set with the same terms. The idealized
  kernel is the kernel's own text read at the ideal values (no operation was rewritten), so the idealization claim is
  trivial; the three frames are the generated ones.
-/
import proofs.«151126_j63591285785172_1_alg».proof.Defs
import proofs.«151126_j63591285785172_1_alg».proof.Proof.Gen.Kernel
import proofs.«151126_j63591285785172_1_alg».proof.Proof.Gen.Kernel.Skeleton
import proofs.«151126_j63591285785172_1_alg».proof.Proof.Gen.Kernel.Launch
import proofs.«151126_j63591285785172_1_alg».proof.Proof.Gen.Kernel.Points
import proofs.«151126_j63591285785172_1_alg».proof.Proof.Gen.Kernel.Frame
import proofs.«151126_j63591285785172_1_alg».proof.Proof.Gen.KernelIdeal
import proofs.«151126_j63591285785172_1_alg».proof.Proof.Gen.KernelIdeal.Skeleton
import proofs.«151126_j63591285785172_1_alg».proof.Proof.Gen.KernelIdeal.Launch
import proofs.«151126_j63591285785172_1_alg».proof.Proof.Gen.KernelIdeal.Points
import proofs.«151126_j63591285785172_1_alg».proof.Proof.Gen.KernelIdeal.Frame
import proofs.«151126_j63591285785172_1_alg».proof.Proof.Gen.ReferenceIdeal
import proofs.«151126_j63591285785172_1_alg».proof.Proof.Gen.Pre_finite_inputs
import proofs.«151126_j63591285785172_1_alg».proof.Proof.Gen.KernelIdeal.Value
import proofs.«151126_j63591285785172_1_alg».proof.Proof.Gen.ReferenceIdeal.Run
import proofs.«151126_j63591285785172_1_alg».proof.Proof.Gen.ReferenceIdeal.Read
import proofs.«151126_j63591285785172_1_alg».proof.Proof.KernelArray
import proofs.«151126_j63591285785172_1_alg».proof.Proof.RefLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end at `Mlp.G` of arguments that agree. -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq, Cert.ReferenceIdeal.Layer.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
